-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1250000x128 : Shape := ⟨2, ![1250000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x128, .f32⟩
  | .hbm, ⟨48, _⟩ => ⟨S_, .f32⟩
  | .hbm, ⟨49, _⟩ => ⟨S100000x128, .f32⟩
  | .hbm, ⟨50, _⟩ => ⟨S1250000x1, .i32⟩
  | .hbm, ⟨51, _⟩ => ⟨S100000x128, .f32⟩
  | .hbm, ⟨52, _⟩ => ⟨S_, .f32⟩
  | .hbm, ⟨53, _⟩ => ⟨S1250000, .f32⟩
  | .hbm, ⟨54, _⟩ => ⟨S_, .f32⟩
  | .hbm, ⟨55, _⟩ => ⟨S100000, .f32⟩
  | .hbm, ⟨56, _⟩ => ⟨S1250000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S2000x64_S64x128_S2000x128_1_0_0_1_n_n_wf : DotDims.WF S2000x64 S64x128 S2000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1250000x128 : Shape := ⟨2, ![1250000, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x128, .f32⟩
  | .hbm, ⟨55, _⟩ => ⟨S_, .f32⟩
  | .hbm, ⟨56, _⟩ => ⟨S100000x128, .f32⟩
  | .hbm, ⟨57, _⟩ => ⟨S1250000x1, .i32⟩
  | .hbm, ⟨58, _⟩ => ⟨S100000x128, .f32⟩
  | .hbm, ⟨59, _⟩ => ⟨S_, .f32⟩
  | .hbm, ⟨60, _⟩ => ⟨S1250000, .f32⟩
  | .hbm, ⟨61, _⟩ => ⟨S_, .f32⟩
  | .hbm, ⟨62, _⟩ => ⟨S100000, .f32⟩
  | .hbm, ⟨63, _⟩ => ⟨S1250000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x128_S100000x128_1_0_0_1_n_n_wf : DotDims.WF S100000x64 S64x128 S100000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S100000x128_S128x128_S100000x128_1_0_0_1_n_n_wf : DotDims.WF S100000x128 S128x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NeighbourMean.lean ====
/-
  The mean over incoming edges, as one function of a feature table and an edge list.

  An edge list is a `2 × E` array of node numbers: row 0 holds each edge's sender, row 1 its receiver. A negative
  sender number is read from the end of the table (the table's height is added to it). For a feature table of `N`
  rows and `D` columns, row `v` of the mean is the sum of the senders' rows over the edges received by `v`,
  divided by the number of those edges, a node that receives nothing counting as one. The function below is that
  computation written as the chain of array operations both programs of this certificate apply: take the senders'
  rows, add them up by receiver, add up a one per edge by receiver, raise that count to at least one, lay it along
  the columns and divide. Nothing here looks inside the chain; it is stated once so that two programs that apply it
  to equal arguments are seen to produce equal arrays without opening the gather or the two scatter-adds.
-/
import Idealize.ShloMosaic.PureOps.Ideal

noncomputable section

namespace Cert.NeighbourMean

open Idealize.ShloMosaic

/-- A matrix shape, a vector shape and the scalar shape. -/
abbrev Mat (r c : ℕ) : Shape := ⟨2, ![r, c]⟩
abbrev Row (n : ℕ) : Shape := ⟨1, ![n]⟩
abbrev Sc : Shape := ⟨0, ![]⟩

/-- What the chain states about its shapes for one feature width: the dimension numbers of the row gather and of
    the two scatter-adds, and the shape facts of its slices, its flattening and its broadcasts. -/
structure Recs (N E D : ℕ) where
  take : GatherDims (Mat N D) (Mat E 1) (Mat E D)
  addRows : ScatterDims (Mat N D) (Mat E 1) (Mat E D)
  addOnes : ScatterDims (Row N) (Mat E 1) (Row E)
  cut0 : (Mat 2 E).Slices ![0, 0] (Mat 1 E)
  cut1 : (Mat 2 E).Slices ![1, 0] (Mat 1 E)
  flat : (Mat 1 E).ShapeCasts (Row E)
  fillE : Sc.BroadcastsInDim (Row E) (![] : Fin 0 → Fin (Row E).rank)
  colE : (Row E).BroadcastsInDim (Mat E 1) (![0] : Fin 1 → Fin (Mat E 1).rank)
  fillND : Sc.BroadcastsInDim (Mat N D) (![] : Fin 0 → Fin (Mat N D).rank)
  fillN : Sc.BroadcastsInDim (Row N) (![] : Fin 0 → Fin (Row N).rank)
  colN : (Row N).BroadcastsInDim (Mat N 1) (![0] : Fin 1 → Fin (Mat N 1).rank)
  alongD : (Mat N 1).BroadcastsInDim (Mat N D) (![0, 1] : Fin 2 → Fin (Mat N D).rank)

variable {F : FTy → Type} [FloatOps F] {N E D : ℕ}

/-- The receivers: row 1 of the edge list, flattened. -/
def receivers (R : Recs N E D) (e : IVec (Mat 2 E) 32) : IVec (Row E) 32 :=
  shapeCast (Row E) (extractStridedSlice (Mat 1 E) ![1, 0] e R.cut1) R.flat

/-- Row 0 of the edge list, flattened: the sender numbers as written. -/
def sendersRaw (R : Recs N E D) (e : IVec (Mat 2 E) 32) : IVec (Row E) 32 :=
  shapeCast (Row E) (extractStridedSlice (Mat 1 E) ![0, 0] e R.cut0) R.flat

/-- The senders: a negative number has the table's height `h` added to it. -/
def senders (R : Recs N E D) (h : BitVec 32) (e : IVec (Mat 2 E) 32) : IVec (Row E) 32 :=
  select (cmpi .slt (sendersRaw R e) (broadcastInDim (Row E) ![] R.fillE (constantI Sc 32 0#32)))
    (addi (sendersRaw R e) (broadcastInDim (Row E) ![] R.fillE (constantI Sc 32 h)))
    (sendersRaw R e)

/-- How many edges each node receives, at least one. -/
def degree (R : Recs N E D) (e : IVec (Mat 2 E) 32) : FVec F (Row N) .f32 :=
  maximumf
    (Host.scatterAdd R.addOnes (broadcastInDim (Row N) ![] R.fillN (constant Sc .f32 0x00000000#32))
      (broadcastInDim (Mat E 1) ![0] R.colE (receivers R e))
      (broadcastInDim (Row E) ![] R.fillE (constant Sc .f32 0x3F800000#32)))
    (broadcastInDim (Row N) ![] R.fillN (constant Sc .f32 0x3F800000#32))

/-- The mean of the senders' rows over each node's incoming edges. -/
def mean (R : Recs N E D) (h : BitVec 32) (x : FVec F (Mat N D) .f32) (e : IVec (Mat 2 E) 32) : FVec F (Mat N D) .f32 :=
  Host.divf
    (Host.scatterAdd R.addRows (broadcastInDim (Mat N D) ![] R.fillND (constant Sc .f32 0x00000000#32))
      (broadcastInDim (Mat E 1) ![0] R.colE (receivers R e))
      (Host.gather R.take x (broadcastInDim (Mat E 1) ![0] R.colE (senders R h e))))
    (broadcastInDim (Mat N D) ![0, 1] R.alongD (broadcastInDim (Mat N 1) ![0] R.colN (degree R e)))

end Cert.NeighbourMean

end
-- ==== Proof.KernelHost.lean ====
/-
  What the host operations around the two kernel regions hand to them.

  Before the first region the host computes the mean of the node table's rows over each node's incoming edges and
  reshapes the first bias vector to a row; the region's other three operands are arguments nobody has written.
  Between the regions it computes the same mean of the first region's output table and reshapes the second bias
  vector; the edge list's two rows, taken apart before the first region, are read again there and have not changed.
  Each fact below reads one buffer at a region's entry as that function of the launch memory. The mean is carried
  as one function; its gather and scatter-adds are never opened.
-/
import proofs.«139015_j46703474376723_1_alg».proof.Proof.Gen.KernelIdeal.Frame
import proofs.«139015_j46703474376723_1_alg».proof.Proof.NeighbourMean

set_option maxRecDepth 16384

noncomputable section

namespace Cert.KernelIdeal.HostSide

open Cert.KernelIdeal Cert.KernelIdeal.Gen
open Idealize.ShloMosaic Idealize.ShloMosaic.TcCoe Idealize.SL.Sem
open Cert.NeighbourMean

/-- The records and shape facts this program states for the 64-wide mean … -/
def recs64 : Recs 100000 1250000 64 where
  take := gather_S100000x64_S1250000x1_S1250000x64_1_0_n_n_0_1_164
  addRows := scatter_S100000x64_S1250000x1_S1250000x64_1_0_0_1
  addOnes := scatter_S100000_S1250000x1_S1250000_n_0_0_1
  cut0 := Facts₀.slices_S2x1250000_S1x1250000_0_0
  cut1 := Facts₀.slices_S2x1250000_S1x1250000_1_0
  flat := Facts₀.shapeCasts_S1x1250000_S1250000
  fillE := Facts₀.bcast_S_S1250000
  colE := Facts₀.bcast_S1250000_S1250000x1_0
  fillND := Facts₀.bcast_S_S100000x64
  fillN := Facts₀.bcast_S_S100000
  colN := Facts₀.bcast_S100000_S100000x1_0
  alongD := Facts₀.bcast_S100000x1_S100000x64_0_1

/-- … and for the 128-wide one. -/
def recs128 : Recs 100000 1250000 128 where
  take := gather_S100000x128_S1250000x1_S1250000x128_1_0_n_n_0_1_1128
  addRows := scatter_S100000x128_S1250000x1_S1250000x128_1_0_0_1
  addOnes := scatter_S100000_S1250000x1_S1250000_n_0_0_1
  cut0 := Facts₀.slices_S2x1250000_S1x1250000_0_0
  cut1 := Facts₀.slices_S2x1250000_S1x1250000_1_0
  flat := Facts₀.shapeCasts_S1x1250000_S1250000
  fillE := Facts₀.bcast_S_S1250000
  colE := Facts₀.bcast_S1250000_S1250000x1_0
  fillND := Facts₀.bcast_S_S100000x128
  fillN := Facts₀.bcast_S_S100000
  colN := Facts₀.bcast_S100000_S100000x1_0
  alongD := Facts₀.bcast_S100000x1_S100000x128_0_1

variable (m : (ℓ : Loc nD τ sig) → Buf (Elt Ideal) ℓ) (ρ : Dev nD → PrngReg)

/-! ## At the first region's entry -/

set_option maxHeartbeats 8000000 in
/-- The aggregated table: the mean of the node table's rows. -/
theorem V1_v22 (c : Dev nD) :
    V1 m ρ c main_v22 = mean (F := Ideal) recs64 100000#32 (m ((c : Thread nD τ).loc main_arg0)) (m ((c : Thread nD τ).loc main_arg1)) := by
  show StableHlo.after hostOps0 (W0 m ρ c) (Proc.devRef .tc main_v22) = _
  after_results_simp
  rfl

/-- The first bias vector, reshaped to a row. -/
theorem V1_v23 (c : Dev nD) :
    V1 m ρ c main_v23 = shapeCast S1x128 (m ((c : Thread nD τ).loc main_arg3)) Facts₀.shapeCasts_S128_S1x128 := by
  show StableHlo.after hostOps0 (W0 m ρ c) (Proc.devRef .tc main_v23) = _
  after_results
  rfl

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results

/-! ## Across the first region: what it does not write -/

/-- The senders' row of the edge list, as taken apart before the first region. -/
theorem W2_v1 (c : Dev nD) :
    W2 m ρ c (Proc.devRef .tc main_v1) = sendersRaw recs128 (m ((c : Thread nD τ).loc main_arg1)) :=
  (W2_of_ne m ρ c main_v1 (by decide)).trans (by
    show StableHlo.after hostOps0 (W0 m ρ c) (Proc.devRef .tc main_v1) = _
    after_results
    rfl)

/-- The receivers' row. -/
theorem W2_v3 (c : Dev nD) :
    W2 m ρ c (Proc.devRef .tc main_v3) = receivers recs128 (m ((c : Thread nD τ).loc main_arg1)) :=
  (W2_of_ne m ρ c main_v3 (by decide)).trans (by
    show StableHlo.after hostOps0 (W0 m ρ c) (Proc.devRef .tc main_v3) = _
    after_results
    rfl)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## At the second region's entry -/

set_option maxHeartbeats 8000000 in
/-- The aggregated table: the mean of the first region's output table. -/
theorem V3_v43 (c : Dev nD) :
    V3 m ρ c main_v43 = mean (F := Ideal) recs128 100000#32 (V2 m ρ c main_v24) (m ((c : Thread nD τ).loc main_arg1)) := by
  show StableHlo.after hostOps1 (W2 m ρ c) (Proc.devRef .tc main_v43) = _
  after_results_simp
  rw [W2_v1, W2_v3]
  rfl

/-- The first region's output table, untouched by the host in between. -/
theorem V3_v24 (c : Dev nD) : V3 m ρ c main_v24 = V2 m ρ c main_v24 := by
  show StableHlo.after hostOps1 (W2 m ρ c) (Proc.devRef .tc main_v24) = _
  after_results

/-- The second bias vector, reshaped to a row. -/
theorem V3_v44 (c : Dev nD) :
    V3 m ρ c main_v44 = shapeCast S1x128 (m ((c : Thread nD τ).loc main_arg6)) Facts₀.shapeCasts_S128_S1x128 := by
  show StableHlo.after hostOps1 (W2 m ρ c) (Proc.devRef .tc main_v44) = _
  after_results
  rw [W2_arg6]
  rfl

theorem V3_arg5 (c : Dev nD) : V3 m ρ c main_arg5 = m ((c : Thread nD τ).loc main_arg5) := by
  show StableHlo.after hostOps1 (W2 m ρ c) (Proc.devRef .tc main_arg5) = _
  after_results
  exact W2_arg5 m ρ c
theorem V3_arg7 (c : Dev nD) : V3 m ρ c main_arg7 = m ((c : Thread nD τ).loc main_arg7) := by
  show StableHlo.after hostOps1 (W2 m ρ c) (Proc.devRef .tc main_arg7) = _
  after_results
  exact W2_arg7 m ρ c

end Cert.KernelIdeal.HostSide

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.DenseRows.lean ====
/-
  A dense layer on rows, as one function of its arrays, and the two printed forms that compute it.

  For a table `a` of aggregated features and a table `x` of the nodes' own features (both `n × k`), two weight
  matrices `wl`, `wr` (`k × c`) and a bias row `β` (`1 × c`), entry `(p, q)` of the layer is

      (∑ κ, a (p, κ) · wl (κ, q) + ∑ κ, x (p, κ) · wr (κ, q)) + β (0, q)

  on the extended reals; the rectified layer is its maximum with zero. The vector unit computes it as two products
  into zero accumulators (of operands narrowed to a shorter float format, which changes no value here), added, plus
  the bias row repeated down the rows. The host computes `(a · wl + bias) + x · wr` with the bias given as a vector
  laid out in two steps. The two differ by the order of a three-term sum only, and addition of extended reals is
  commutative and associative, so no finiteness is needed. A block of rows of the layer is the layer of the blocks.
-/
import Idealize.ShloMosaic.PureOps.Ideal.Laws
import Idealize.ShloMosaic.Lib.ValueIdx
import Idealize.ShloMosaic.Lib.Pipeline.Value
import proofs.«139015_j46703474376723_1_alg».proof.Proof.LibPlainProduct
import proofs.«139015_j46703474376723_1_alg».proof.Proof.LibBroadcastRead
import proofs.«139015_j46703474376723_1_alg».proof.Proof.NeighbourMean

noncomputable section

open scoped BigOperators

namespace Cert.DenseRows

open Idealize.ShloMosaic Idealize.ShloMosaic.ValueIdx Idealize.ShloMosaic.Pipeline Cert.NeighbourMean

variable {n k c : ℕ}

/-- The layer, entry by entry. -/
def dense (a x : FVec Ideal (Mat n k) .f32) (wl wr : FVec Ideal (Mat k c) .f32) (β : FVec Ideal (Mat 1 c) .f32) :
    FVec Ideal (Mat n c) .f32 :=
  fun i => ((∑ κ : Fin k, a (ix2 (i 0) κ) * wl (ix2 κ (i 1))) + ∑ κ : Fin k, x (ix2 (i 0) κ) * wr (ix2 κ (i 1)))
    + β (ix2 0 (i 1))

/-- The rectified layer: its maximum with zero (the zero word's value, kept as the word). -/
def denseRelu (a x : FVec Ideal (Mat n k) .f32) (wl wr : FVec Ideal (Mat k c) .f32) (β : FVec Ideal (Mat 1 c) .f32) :
    FVec Ideal (Mat n c) .f32 :=
  fun i => max (dense a x wl wr β i) (Ideal.ofBits .f32 0x00000000#32)

/-- A bias vector as a one-row matrix. -/
def asRow (b : FVec Ideal (Row c) .f32) : FVec Ideal (Mat 1 c) .f32 := fun i => b (ix1 (i 1))

theorem dense_apply (a x : FVec Ideal (Mat n k) .f32) (wl wr : FVec Ideal (Mat k c) .f32) (β : FVec Ideal (Mat 1 c) .f32)
    (p : Fin n) (q : Fin c) :
    dense a x wl wr β (ix2 p q)
      = ((∑ κ : Fin k, a (ix2 p κ) * wl (ix2 κ q)) + ∑ κ : Fin k, x (ix2 p κ) * wr (ix2 κ q)) + β (ix2 0 q) := rfl

/-! ## The vector unit's form -/

/-- Two products into zero accumulators, added, plus the bias row repeated down the rows, at `(p, q)`. -/
theorem unit_sum_apply (d : DotDims (Mat n k) (Mat k c) (Mat n c)) (hd : d = DotDims.plain n k c)
    (a x : FVec Ideal (Mat n k) .bf16) (wl wr : FVec Ideal (Mat k c) .bf16) (β : FVec Ideal (Mat 1 c) .f32)
    (hb : (Mat 1 c).Broadcasts (Mat n c)) (p : Fin n) (q : Fin c) :
    addf (addf (matmul d none a wl (constant (Mat n c) .f32 0x00000000#32))
        (matmul d none x wr (constant (Mat n c) .f32 0x00000000#32))) (broadcastTo (Mat n c) β hb) (ix2 p q)
      = ((∑ κ : Fin k, a (ix2 p κ) * wl (ix2 κ q)) + ∑ κ : Fin k, x (ix2 p κ) * wr (ix2 κ q)) + β (ix2 0 q) := by
  subst hd
  show (FloatOps.matmul (DotDims.plain n k c) none a wl (constant (Mat n c) .f32 0x00000000#32) (ix2 p q)
      + FloatOps.matmul (DotDims.plain n k c) none x wr (constant (Mat n c) .f32 0x00000000#32) (ix2 p q))
      + broadcastTo (Mat n c) β hb (ix2 p q) = _
  rw [Cert.LibPlainProduct.matmul_zero_plain_apply, Cert.LibPlainProduct.matmul_zero_plain_apply,
    broadcastTo_apply β hb (ix2 p q) (ix2 0 q) (fun ax => by
      match ax with
      | ⟨0, _⟩ => show (0 : ℕ) = if (1 : ℕ) = 1 then 0 else _; rw [if_pos rfl]
      | ⟨1, _⟩ =>
        show q.val = if c = 1 then 0 else q.val
        have := q.isLt; split <;> omega)]

/-- The vector unit's layer on operands narrowed to the shorter format is the layer. -/
theorem unit_layer (d : DotDims (Mat n k) (Mat k c) (Mat n c)) (hd : d = DotDims.plain n k c)
    (a x : FVec Ideal (Mat n k) .f32) (wl wr : FVec Ideal (Mat k c) .f32) (β : FVec Ideal (Mat 1 c) .f32)
    (hb : (Mat 1 c).Broadcasts (Mat n c)) (ht : FTy.bits .bf16 < FTy.bits .f32) :
    addf (addf (matmul d none (truncf .bf16 a ht) (truncf .bf16 wl ht) (constant (Mat n c) .f32 0x00000000#32))
        (matmul d none (truncf .bf16 x ht) (truncf .bf16 wr ht) (constant (Mat n c) .f32 0x00000000#32)))
        (broadcastTo (Mat n c) β hb)
      = dense a x wl wr β := by
  funext i
  obtain ⟨p, q, rfl⟩ : ∃ (p : Fin n) (q : Fin c), i = ix2 p q := ⟨i 0, i 1, eq_ix2 i⟩
  rw [unit_sum_apply d hd]
  rfl

/-- And its maximum with a splat zero is the rectified layer. -/
theorem unit_layer_relu (d : DotDims (Mat n k) (Mat k c) (Mat n c)) (hd : d = DotDims.plain n k c)
    (a x : FVec Ideal (Mat n k) .f32) (wl wr : FVec Ideal (Mat k c) .f32) (β : FVec Ideal (Mat 1 c) .f32)
    (hb : (Mat 1 c).Broadcasts (Mat n c)) (ht : FTy.bits .bf16 < FTy.bits .f32) :
    maximumf (addf (addf (matmul d none (truncf .bf16 a ht) (truncf .bf16 wl ht) (constant (Mat n c) .f32 0x00000000#32))
        (matmul d none (truncf .bf16 x ht) (truncf .bf16 wr ht) (constant (Mat n c) .f32 0x00000000#32)))
        (broadcastTo (Mat n c) β hb)) (broadcast (Mat n c) (Scalar.ofBits (F := Ideal) .f32 0x00000000#32))
      = denseRelu a x wl wr β := by
  rw [unit_layer d hd a x wl wr β hb ht]
  rfl

/-! ## The host's form -/

/-- `(a · wl + bias) + x · wr` with the bias vector laid out as a row and repeated down the rows, at `(p, q)`:
    the layer's three terms in another order. -/
theorem host_sum_apply (d : DotDims (Mat n k) (Mat k c) (Mat n c)) (hd : d = DotDims.plain n k c)
    (a x : FVec Ideal (Mat n k) .f32) (wl wr : FVec Ideal (Mat k c) .f32) (b : FVec Ideal (Row c) .f32)
    (h1 : (Row c).BroadcastsInDim (Mat 1 c) (![1] : Fin 1 → Fin (Mat 1 c).rank))
    (h2 : (Mat 1 c).BroadcastsInDim (Mat n c) (![0, 1] : Fin 2 → Fin (Mat n c).rank)) (p : Fin n) (q : Fin c) :
    addf (addf (Host.dotGeneral d none a wl) (broadcastInDim (Mat n c) ![0, 1] h2 (broadcastInDim (Mat 1 c) ![1] h1 b)))
        (Host.dotGeneral d none x wr) (ix2 p q)
      = dense a x wl wr (asRow b) (ix2 p q) := by
  subst hd
  show (FloatOps.dotGeneral (DotDims.plain n k c) none .single a wl (ix2 p q)
      + broadcastInDim (Mat n c) ![0, 1] h2 (broadcastInDim (Mat 1 c) ![1] h1 b) (ix2 p q))
      + FloatOps.dotGeneral (DotDims.plain n k c) none .single x wr (ix2 p q)
    = ((∑ κ : Fin k, a (ix2 p κ) * wl (ix2 κ q)) + ∑ κ : Fin k, x (ix2 p κ) * wr (ix2 κ q)) + b (ix1 q)
  rw [Cert.LibPlainProduct.dotGeneral_plain_apply, Cert.LibPlainProduct.dotGeneral_plain_apply,
    Cert.LibBroadcastRead.row_down_apply, Cert.LibBroadcastRead.vec_as_row_apply]
  exact add_right_comm _ _ _

theorem host_layer (d : DotDims (Mat n k) (Mat k c) (Mat n c)) (hd : d = DotDims.plain n k c)
    (a x : FVec Ideal (Mat n k) .f32) (wl wr : FVec Ideal (Mat k c) .f32) (b : FVec Ideal (Row c) .f32)
    (h1 : (Row c).BroadcastsInDim (Mat 1 c) (![1] : Fin 1 → Fin (Mat 1 c).rank))
    (h2 : (Mat 1 c).BroadcastsInDim (Mat n c) (![0, 1] : Fin 2 → Fin (Mat n c).rank)) :
    addf (addf (Host.dotGeneral d none a wl) (broadcastInDim (Mat n c) ![0, 1] h2 (broadcastInDim (Mat 1 c) ![1] h1 b)))
        (Host.dotGeneral d none x wr)
      = dense a x wl wr (asRow b) := by
  funext i
  obtain ⟨p, q, rfl⟩ : ∃ (p : Fin n) (q : Fin c), i = ix2 p q := ⟨i 0, i 1, eq_ix2 i⟩
  exact host_sum_apply d hd a x wl wr b h1 h2 p q

/-- The host's rectified layer: the maximum with a zero laid out over the whole array. -/
theorem host_layer_relu (d : DotDims (Mat n k) (Mat k c) (Mat n c)) (hd : d = DotDims.plain n k c)
    (a x : FVec Ideal (Mat n k) .f32) (wl wr : FVec Ideal (Mat k c) .f32) (b : FVec Ideal (Row c) .f32)
    (h1 : (Row c).BroadcastsInDim (Mat 1 c) (![1] : Fin 1 → Fin (Mat 1 c).rank))
    (h2 : (Mat 1 c).BroadcastsInDim (Mat n c) (![0, 1] : Fin 2 → Fin (Mat n c).rank))
    (h0 : Sc.BroadcastsInDim (Mat n c) (![] : Fin 0 → Fin (Mat n c).rank)) :
    maximumf (addf (addf (Host.dotGeneral d none a wl) (broadcastInDim (Mat n c) ![0, 1] h2 (broadcastInDim (Mat 1 c) ![1] h1 b)))
        (Host.dotGeneral d none x wr)) (broadcastInDim (Mat n c) ![] h0 (constant (F := Ideal) Sc .f32 0x00000000#32))
      = denseRelu a x wl wr (asRow b) := by
  rw [host_layer d hd a x wl wr b h1 h2]
  rfl

/-! ## A bias vector reshaped to a row -/

/-- A vector flattened into a one-row matrix holds the vector's entry `q` at `(0, q)`. -/
theorem shapeCast_row (b : FVec Ideal (Row c) .f32) (h : (Row c).ShapeCasts (Mat 1 c)) :
    shapeCast (Mat 1 c) b h = asRow b := by
  funext i
  obtain ⟨u, q, rfl⟩ : ∃ (u : Fin 1) (q : Fin c), i = ix2 u q := ⟨i 0, i 1, eq_ix2 i⟩
  refine shapeCast_apply b h (ix2 u q) (ix1 q) ?_
  rw [Shape.rowMajor_val_one, Shape.rowMajor_val_two]
  show q.val = u.val * c + q.val
  have := u.isLt
  have hu : u.val = 0 := by omega
  rw [hu, Nat.zero_mul, Nat.zero_add]

/-! ## Blocks of rows -/

/-- The layer of a block, at a block index `i`, is the tables' layer at the array index `I` that `i` stands for,
    when the block's row `i 0` is the tables' row `I 0` (`ha`, `hx`), the block's weights and bias row are the whole
    arrays, and the column is the same. -/
theorem dense_block {N : ℕ} (A X : FVec Ideal (Mat N k) .f32) (a x : FVec Ideal (Mat n k) .f32)
    (wl wr wl' wr' : FVec Ideal (Mat k c) .f32) (β β' : FVec Ideal (Mat 1 c) .f32) (i : (Mat n c).Idx) (I : (Mat N c).Idx)
    (ha : ∀ κ : Fin k, a (ix2 (i 0) κ) = A (ix2 (I 0) κ)) (hx : ∀ κ : Fin k, x (ix2 (i 0) κ) = X (ix2 (I 0) κ))
    (hwl : wl' = wl) (hwr : wr' = wr) (hβ : β' = β) (hq : i 1 = I 1) :
    dense a x wl' wr' β' i = dense A X wl wr β I := by
  subst hwl hwr hβ
  unfold dense
  simp only [ha, hx, hq]

theorem denseRelu_block {N : ℕ} (A X : FVec Ideal (Mat N k) .f32) (a x : FVec Ideal (Mat n k) .f32)
    (wl wr wl' wr' : FVec Ideal (Mat k c) .f32) (β β' : FVec Ideal (Mat 1 c) .f32) (i : (Mat n c).Idx) (I : (Mat N c).Idx)
    (ha : ∀ κ : Fin k, a (ix2 (i 0) κ) = A (ix2 (I 0) κ)) (hx : ∀ κ : Fin k, x (ix2 (i 0) κ) = X (ix2 (I 0) κ))
    (hwl : wl' = wl) (hwr : wr' = wr) (hβ : β' = β) (hq : i 1 = I 1) :
    denseRelu a x wl' wr' β' i = denseRelu A X wl wr β I :=
  congrArg (fun z => max z (Ideal.ofBits .f32 0x00000000#32)) (dense_block A X a x wl wr wl' wr' β β' i I ha hx hwl hwr hβ hq)

end Cert.DenseRows

end
-- ==== Proof.Region0.lean ====
/-
  The first dense layer: what the first kernel region leaves in its output array.

  The region walks the 100000 rows in 50 blocks of 2000. At block `t` the body reads rows `2000·t … 2000·t + 1999` of
  the aggregated table and of the node table, the two 64 × 128 weight matrices and the bias row whole, and stores the
  rectified layer of those blocks. A block of rows of the layer is the layer of the blocks, and the 50 blocks cover the
  array, so the array ends holding the rectified layer of the five arrays as the region found them, whatever those are.
-/
import proofs.«139015_j46703474376723_1_alg».proof.Proof.Gen.KernelIdeal.Frame
import proofs.«139015_j46703474376723_1_alg».proof.Proof.DenseRows

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseRows Cert.NeighbourMean

variable (V : (c : Dev nD) → (b : Ref sig .tc) → Buf (Elt Ideal) ((c : Thread nD τ).loc b))

theorem hz : (![0, 0] : Fin 2 → Nat) = fun _ => 0 := funext fun a => by fin_cases a <;> rfl

/-- The body's stored value is the rectified layer of the five loaded blocks. -/
theorem pay_eq (v0 v3 : Vec Ideal S2000x64 .f32) (v5 v7 : Vec Ideal S64x128 .f32) (v12 : Vec Ideal S1x128 .f32) :
    k0_pay1 (F := Ideal) v0 v3 v5 v7 v12 = denseRelu (n := 2000) (k := 64) (c := 128) v0 v3 v5 v7 v12 := by
  unfold k0_pay1
  simp only [shapeCast_self]
  exact unit_layer_relu dot_S2000x64_S64x128_S2000x128_1_0_0_1_n_n rfl v0 v3 v5 v7 v12 broadcasts_S1x128_S2000x128 bitsLt_bf16_f32

/-- The printed index maps over the grid: the three row windows sit at block row `t`, column block 0; the weights and
    the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the rectified layer of the arrays as the region finds them. -/
theorem flushed_eq (c : Dev nD) (t : Fin cfg0.N) :
    (dat0 V c).flushed 5 t = ((cfg0.win 5).blk t).view.read (Elt Ideal)
      (denseRelu (n := 100000) (k := 64) (c := 128) (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x128) hz, View.ld_unit_zero (S := S1x128) hz]
  rw [pay_eq]
  obtain ⟨e00, e01, e10, e11, e20, e21, e30, e31, e40, e41, e50, e51⟩ := idx_facts t
  funext j
  show denseRelu (n := 2000) (k := 64) (c := 128) (iblk0 V c 0 t) (iblk0 V c 1 t) (iblk0 V c 2 t) (iblk0 V c 4 t) (iblk0 V c 3 t) j
    = denseRelu (n := 100000) (k := 64) (c := 128) (V c main_v22) (V c main_arg0) (V c main_arg2) (V c main_arg4) (V c main_v23)
        (((cfg0.win 5).blk t).view.emb j)
  have hj0 : (j 0).val < 2000 := (j 0).isLt
  have hj1 : (j 1).val < 128 := (j 1).isLt
  refine denseRelu_block (V c main_v22) (V c main_arg0) (iblk0 V c 0 t) (iblk0 V c 1 t) (V c main_arg2) (V c main_arg4)
    (iblk0 V c 2 t) (iblk0 V c 4 t) (V c main_v23) (iblk0 V c 3 t) j (((cfg0.win 5).blk t).view.emb j) ?_ ?_ ?_ ?_ ?_ ?_
  · intro κ
    show V c main_v22 (((cfg0.win 0).blk t).view.emb (ix2 (j 0) κ)) = V c main_v22 (ix2 ((((cfg0.win 5).blk t).view.emb j) 0) κ)
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 64 + 1 * κ.val = κ.val; omega
  · intro κ
    show V c main_arg0 (((cfg0.win 1).blk t).view.emb (ix2 (j 0) κ)) = V c main_arg0 (ix2 ((((cfg0.win 5).blk t).view.emb j) 0) κ)
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 64 + 1 * κ.val = κ.val; omega
  · funext y
    show V c main_arg2 (((cfg0.win 2).blk t).view.emb y) = V c main_arg2 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 128 + 1 * (y 1).val = (y 1).val; omega
  · funext y
    show V c main_v23 (((cfg0.win 3).blk t).view.emb y) = V c main_v23 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · refine Fin.ext ?_
    show (j 1).val = win0_5.index t (1 : Fin 2) * 128 + 1 * (j 1).val
    omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Row `r` lies in the block of point `r / 2000`: the 50 blocks cover the array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := by
    show (i 0).val / 2000 < grid0.N
    rw [N_0]; omega
  obtain ⟨-, -, -, -, -, -, -, -, -, -, e50, e51⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e51]
    omega

/-- The output array after the region: the rectified layer of the region-entry arrays. -/
theorem array_eq (c : Dev nD) :
    (dat0 V c).arrAt 5 cfg0.N
      = denseRelu (n := 100000) (k := 64) (c := 128) (V c main_v22) (V c main_arg0) (V c main_arg2) (V c main_arg4) (V c main_v23) :=
  (dat0 V c).arrAt_eq_of_cover 5 _ (fun t _ => flushed_eq V c t) cover

end Cert.KernelIdeal.Layer0

end
-- ==== Proof.Region1.lean ====
/-
  The second dense layer: what the second kernel region leaves in its output array.

  The region walks the 100000 rows in 50 blocks of 2000. At block `t` the body reads rows `2000·t … 2000·t + 1999` of
  the aggregated table and of the hidden table (both 128 wide), the two 128 × 128 weight matrices and the bias row
  whole, and stores the layer of those blocks, not rectified. The 50 blocks cover the array, so it ends holding the
  layer of the five arrays as the region found them, whatever those are.
-/
import proofs.«139015_j46703474376723_1_alg».proof.Proof.Gen.KernelIdeal.Frame
import proofs.«139015_j46703474376723_1_alg».proof.Proof.DenseRows

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseRows Cert.NeighbourMean

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the five loaded blocks. -/
theorem pay_eq (v0 v3 : Vec Ideal S2000x128 .f32) (v6 v8 : Vec Ideal S128x128 .f32) (v13 : Vec Ideal S1x128 .f32) :
    k1_pay1 (F := Ideal) v0 v3 v6 v8 v13 = dense (n := 2000) (k := 128) (c := 128) v0 v3 v6 v8 v13 := by
  unfold k1_pay1
  simp only [shapeCast_self]
  exact unit_layer dot_S2000x128_S128x128_S2000x128_1_0_0_1_n_n rfl v0 v3 v6 v8 v13 broadcasts_S1x128_S2000x128 bitsLt_bf16_f32

/-- The printed index maps over the grid: the three row windows sit at block row `t`, column block 0; the weights and
    the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays as the region finds them. -/
theorem flushed_eq (c : Dev nD) (t : Fin cfg1.N) :
    (dat1 V c).flushed 5 t = ((cfg1.win 5).blk t).view.read (Elt Ideal)
      (dense (n := 100000) (k := 128) (c := 128) (V c main_v43) (V c main_v24) (V c main_arg5) (V c main_arg7) (V c main_v44)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [pay_eq]
  obtain ⟨e00, e01, e10, e11, e20, e21, e30, e31, e40, e41, e50, e51⟩ := idx_facts t
  funext j
  show dense (n := 2000) (k := 128) (c := 128) (iblk1 V c 0 t) (iblk1 V c 1 t) (iblk1 V c 2 t) (iblk1 V c 4 t) (iblk1 V c 3 t) j
    = dense (n := 100000) (k := 128) (c := 128) (V c main_v43) (V c main_v24) (V c main_arg5) (V c main_arg7) (V c main_v44)
        (((cfg1.win 5).blk t).view.emb j)
  have hj0 : (j 0).val < 2000 := (j 0).isLt
  have hj1 : (j 1).val < 128 := (j 1).isLt
  refine dense_block (V c main_v43) (V c main_v24) (iblk1 V c 0 t) (iblk1 V c 1 t) (V c main_arg5) (V c main_arg7)
    (iblk1 V c 2 t) (iblk1 V c 4 t) (V c main_v44) (iblk1 V c 3 t) j (((cfg1.win 5).blk t).view.emb j) ?_ ?_ ?_ ?_ ?_ ?_
  · intro κ
    show V c main_v43 (((cfg1.win 0).blk t).view.emb (ix2 (j 0) κ)) = V c main_v43 (ix2 ((((cfg1.win 5).blk t).view.emb j) 0) κ)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * κ.val = κ.val; omega
  · intro κ
    show V c main_v24 (((cfg1.win 1).blk t).view.emb (ix2 (j 0) κ)) = V c main_v24 (ix2 ((((cfg1.win 5).blk t).view.emb j) 0) κ)
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * κ.val = κ.val; omega
  · funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v44 (((cfg1.win 3).blk t).view.emb y) = V c main_v44 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · refine Fin.ext ?_
    show (j 1).val = win1_5.index t (1 : Fin 2) * 128 + 1 * (j 1).val
    omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row `r` lies in the block of point `r / 2000`: the 50 blocks cover the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 2000 < cfg1.N := by
    show (i 0).val / 2000 < grid1.N
    rw [N_1]; omega
  obtain ⟨-, -, -, -, -, -, -, -, -, -, e50, e51⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e51]
    omega

/-- The output array after the region: the layer of the region-entry arrays. -/
theorem array_eq (c : Dev nD) :
    (dat1 V c).arrAt 5 cfg1.N
      = dense (n := 100000) (k := 128) (c := 128) (V c main_v43) (V c main_v24) (V c main_arg5) (V c main_arg7) (V c main_v44) :=
  (dat1 V c).arrAt_eq_of_cover 5 _ (fun t _ => flushed_eq V c t) cover

end Cert.KernelIdeal.Layer1

end
-- ==== Proof.SageSpec.lean ====
/-
  Two rounds of "average the neighbours, then a dense layer", as one function of the inputs.

  Round one takes the node table `x`, averages it over each node's incoming edges, and applies the rectified dense
  layer (weights `w1l` on the average, `w1r` on the node's own row, bias `b1`). Round two does the same to the result
  with `w2l`, `w2r`, `b2` and no rectification. The host program spells each layer as
  `(average · wl + bias) + own · wr`; that spelling is this function (the layer's three terms in another order).
-/
import proofs.«139015_j46703474376723_1_alg».proof.Proof.DenseRows

noncomputable section

namespace Cert.Sage

open Idealize.ShloMosaic Cert.NeighbourMean Cert.DenseRows

variable {N E k1 k2 c : ℕ}

/-- Round one: the rectified layer of the neighbours' mean and the node's own row. -/
def hidden (R1 : Recs N E k1) (h : BitVec 32) (x : FVec Ideal (Mat N k1) .f32) (e : IVec (Mat 2 E) 32)
    (w1l : FVec Ideal (Mat k1 k2) .f32) (b1 : FVec Ideal (Row k2) .f32) (w1r : FVec Ideal (Mat k1 k2) .f32) :
    FVec Ideal (Mat N k2) .f32 :=
  denseRelu (mean R1 h x e) x w1l w1r (asRow b1)

/-- Both rounds. -/
def twoLayers (R1 : Recs N E k1) (R2 : Recs N E k2) (h : BitVec 32) (x : FVec Ideal (Mat N k1) .f32) (e : IVec (Mat 2 E) 32)
    (w1l : FVec Ideal (Mat k1 k2) .f32) (b1 : FVec Ideal (Row k2) .f32) (w1r : FVec Ideal (Mat k1 k2) .f32)
    (w2l : FVec Ideal (Mat k2 c) .f32) (b2 : FVec Ideal (Row c) .f32) (w2r : FVec Ideal (Mat k2 c) .f32) :
    FVec Ideal (Mat N c) .f32 :=
  dense (mean R2 h (hidden R1 h x e w1l b1 w1r) e) (hidden R1 h x e w1l b1 w1r) w2l w2r (asRow b2)

/-- The host's spelling of the two rounds is that function. -/
theorem host_twoLayers (R1 : Recs N E k1) (R2 : Recs N E k2) (h : BitVec 32) (x : FVec Ideal (Mat N k1) .f32) (e : IVec (Mat 2 E) 32)
    (w1l : FVec Ideal (Mat k1 k2) .f32) (b1 : FVec Ideal (Row k2) .f32) (w1r : FVec Ideal (Mat k1 k2) .f32)
    (w2l : FVec Ideal (Mat k2 c) .f32) (b2 : FVec Ideal (Row c) .f32) (w2r : FVec Ideal (Mat k2 c) .f32)
    (d1 : DotDims (Mat N k1) (Mat k1 k2) (Mat N k2)) (hd1 : d1 = DotDims.plain N k1 k2)
    (d2 : DotDims (Mat N k2) (Mat k2 c) (Mat N c)) (hd2 : d2 = DotDims.plain N k2 c)
    (r1 : (Row k2).BroadcastsInDim (Mat 1 k2) (![1] : Fin 1 → Fin (Mat 1 k2).rank))
    (s1 : (Mat 1 k2).BroadcastsInDim (Mat N k2) (![0, 1] : Fin 2 → Fin (Mat N k2).rank))
    (z1 : Sc.BroadcastsInDim (Mat N k2) (![] : Fin 0 → Fin (Mat N k2).rank))
    (r2 : (Row c).BroadcastsInDim (Mat 1 c) (![1] : Fin 1 → Fin (Mat 1 c).rank))
    (s2 : (Mat 1 c).BroadcastsInDim (Mat N c) (![0, 1] : Fin 2 → Fin (Mat N c).rank)) :
    addf (addf
        (Host.dotGeneral d2 none
          (mean R2 h
            (maximumf (addf (addf (Host.dotGeneral d1 none (mean R1 h x e) w1l)
                (broadcastInDim (Mat N k2) ![0, 1] s1 (broadcastInDim (Mat 1 k2) ![1] r1 b1)))
                (Host.dotGeneral d1 none x w1r))
              (broadcastInDim (Mat N k2) ![] z1 (constant (F := Ideal) Sc .f32 0x00000000#32))) e) w2l)
        (broadcastInDim (Mat N c) ![0, 1] s2 (broadcastInDim (Mat 1 c) ![1] r2 b2)))
      (Host.dotGeneral d2 none
        (maximumf (addf (addf (Host.dotGeneral d1 none (mean R1 h x e) w1l)
            (broadcastInDim (Mat N k2) ![0, 1] s1 (broadcastInDim (Mat 1 k2) ![1] r1 b1)))
            (Host.dotGeneral d1 none x w1r))
          (broadcastInDim (Mat N k2) ![] z1 (constant (F := Ideal) Sc .f32 0x00000000#32))) w2r)
      = twoLayers R1 R2 h x e w1l b1 w1r w2l b2 w2r := by
  rw [host_layer_relu d1 hd1 (mean R1 h x e) x w1l w1r b1 r1 s1 z1]
  exact host_layer d2 hd2 _ _ w2l w2r b2 r2 s2

end Cert.Sage

end
-- ==== Proof.KernelValue.lean ====
/-
  The idealized kernel program's result, read as the two-round function of its arguments.

  The program's run leaves the result array at what the second region's write-backs make of it. The second region
  leaves the dense layer of its entry arrays; those are the host's mean of the first region's output, that output
  itself, two weight arguments and the second bias reshaped to a row. The first region leaves the rectified layer of
  its entry arrays: the host's mean of the node table, the node table, two weight arguments and the first bias
  reshaped to a row. Substituting one into the other gives the two rounds.
-/
import proofs.«139015_j46703474376723_1_alg».proof.Proof.KernelRun
import proofs.«139015_j46703474376723_1_alg».proof.Proof.KernelHost
import proofs.«139015_j46703474376723_1_alg».proof.Proof.Region0
import proofs.«139015_j46703474376723_1_alg».proof.Proof.Region1
import proofs.«139015_j46703474376723_1_alg».proof.Proof.SageSpec

set_option maxRecDepth 16384

noncomputable section

namespace Cert.KernelIdeal.Value

open Cert.KernelIdeal Cert.KernelIdeal.Gen Cert.KernelIdeal.HostSide
open Idealize.ShloMosaic Idealize.ShloMosaic.TcCoe Idealize.SL.Sem
open Cert.NeighbourMean Cert.DenseRows Cert.Sage

variable (m : (ℓ : Loc nD τ sig) → Buf (Elt Ideal) ℓ) (ρ : Dev nD → PrngReg)

/-- The first region's output table is round one of the arguments. -/
theorem hidden_eq (c : Dev nD) :
    V2 m ρ c main_v24
      = hidden recs64 100000#32 (m ((c : Thread nD τ).loc main_arg0)) (m ((c : Thread nD τ).loc main_arg1))
          (m ((c : Thread nD τ).loc main_arg2)) (m ((c : Thread nD τ).loc main_arg3)) (m ((c : Thread nD τ).loc main_arg4)) :=
  (W2_arr m ρ c 5).trans (by
    rw [Layer0.array_eq (V1 m ρ) c, V1_v22 m ρ c, V1_arg0 m ρ c, V1_arg2 m ρ c, V1_arg4 m ρ c, V1_v23 m ρ c, shapeCast_row]
    rfl)

/-- The result array after the run is both rounds of the arguments. -/
theorem result_eq (c : Dev nD) :
    W4 m ρ c (Proc.devRef .tc main_v45)
      = twoLayers recs64 recs128 100000#32 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W4_arr m ρ c 5).trans (by
    rw [Layer1.array_eq (V3 m ρ) c, V3_v43 m ρ c, V3_v24 m ρ c, V3_arg5 m ρ c, V3_arg7 m ρ c, V3_v44 m ρ c, shapeCast_row,
      hidden_eq m ρ c]
    rfl)

/-- Every weakly fair execution of the idealized kernel program terminates with its result at the two-round function
    of the arguments and the arguments unchanged. -/
theorem run : θ_run defs (onTc (τ := τ) (main (F := Ideal))) ⟨m, fun _ => 0, ρ⟩ (fun r => ∀ c : Dev nD,
      r.2.mem ((c.tc : Thread nD τ).loc main_v45)
        = twoLayers recs64 recs128 100000#32 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run_named m ρ)

end Cert.KernelIdeal.Value

end
-- ==== Proof.RefTerm.lean ====
/-
  The reference program's result, read as the two-round function of its arguments.

  The reference's run ends with its result at one composed term of the launch memory: the host's mean of the node
  table, the first layer spelt `(mean · W1l + b1) + x · W1r` and rectified, the mean of that, and the second layer
  spelt the same way. With the mean carried as one function of a table and the edge list, that term is the host's
  spelling of the two rounds, which is the two-round function.
-/
import proofs.«139015_j46703474376723_1_alg».proof.Proof.Gen.ReferenceIdeal.Run
import proofs.«139015_j46703474376723_1_alg».proof.Proof.SageSpec

set_option maxRecDepth 16384

noncomputable section

namespace Cert.ReferenceIdeal.HostSide

open Cert.ReferenceIdeal Cert.ReferenceIdeal.Gen Cert.ReferenceIdeal.Value
open Idealize.ShloMosaic Idealize.ShloMosaic.TcCoe Idealize.SL.Sem
open Cert.NeighbourMean Cert.Sage

/-- The records and shape facts this program states for the 64-wide mean … -/
def recs64 : Recs 100000 1250000 64 where
  take := gather_S100000x64_S1250000x1_S1250000x64_1_0_n_n_0_1_164
  addRows := scatter_S100000x64_S1250000x1_S1250000x64_1_0_0_1
  addOnes := scatter_S100000_S1250000x1_S1250000_n_0_0_1
  cut0 := Facts₀.slices_S2x1250000_S1x1250000_0_0
  cut1 := Facts₀.slices_S2x1250000_S1x1250000_1_0
  flat := Facts₀.shapeCasts_S1x1250000_S1250000
  fillE := Facts₀.bcast_S_S1250000
  colE := Facts₀.bcast_S1250000_S1250000x1_0
  fillND := Facts₀.bcast_S_S100000x64
  fillN := Facts₀.bcast_S_S100000
  colN := Facts₀.bcast_S100000_S100000x1_0
  alongD := Facts₀.bcast_S100000x1_S100000x64_0_1

/-- … and for the 128-wide one. -/
def recs128 : Recs 100000 1250000 128 where
  take := gather_S100000x128_S1250000x1_S1250000x128_1_0_n_n_0_1_1128
  addRows := scatter_S100000x128_S1250000x1_S1250000x128_1_0_0_1
  addOnes := scatter_S100000_S1250000x1_S1250000_n_0_0_1
  cut0 := Facts₀.slices_S2x1250000_S1x1250000_0_0
  cut1 := Facts₀.slices_S2x1250000_S1x1250000_1_0
  flat := Facts₀.shapeCasts_S1x1250000_S1250000
  fillE := Facts₀.bcast_S_S1250000
  colE := Facts₀.bcast_S1250000_S1250000x1_0
  fillND := Facts₀.bcast_S_S100000x128
  fillN := Facts₀.bcast_S_S100000
  colN := Facts₀.bcast_S100000_S100000x1_0
  alongD := Facts₀.bcast_S100000x1_S100000x128_0_1

/-- The run's result term is the two-round function of the eight arguments. -/
theorem result_eq (m : (ℓ : Loc nD τ sig) → Buf (Elt Ideal) ℓ) (c : Dev nD) :
    res_main_v54 (F := Ideal) m c
      = twoLayers recs64 recs128 100000#32 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold res_main_v54
  exact host_twoLayers recs64 recs128 100000#32 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    dot_S100000x64_S64x128_S100000x128_1_0_0_1_n_n rfl dot_S100000x128_S128x128_S100000x128_1_0_0_1_n_n rfl
    Facts₀.bcast_S128_S1x128_1 Facts₀.bcast_S1x128_S100000x128_0_1 Facts₀.bcast_S_S100000x128
    Facts₀.bcast_S128_S1x128_1 Facts₀.bcast_S1x128_S100000x128_0_1

end Cert.ReferenceIdeal.HostSide

end
-- ==== Proof.lean ====
/-
  Two rounds of graph averaging followed by a dense layer, computed with the dense layers in kernel regions, against
  the same two rounds computed entirely by host operations.

  Both programs take a node table `x` (100000 × 64), an edge list (2 × 1250000), and two layers' weights and biases.
  Each round averages a table's rows over every node's incoming edges (the same chain of host operations in both
  programs: take the senders' rows, add them up by receiver, divide by the number of edges received, at least one) and
  then forms `average · Wl + own · Wr + b`, rectified after the first round. The kernel program forms each layer in a
  region that walks the rows in 50 blocks of 2000 and adds the bias last; the reference forms it on the host and adds
  the bias before the second product. On the extended reals addition is commutative and associative, so the two orders
  give the same entry and no finiteness of the inputs is used; the shorter float format the kernel narrows its
  operands to changes no value at the exact instance.

  The frames of the two kernel programs are the generated ones. The reference's frame is its generated run with the
  result dropped. The idealized kernel's run names its result as the two-round function by reading each region's
  output array as the layer of the arrays the region was entered with, and the host operations before each region as
  the average; the reference's run names its result by the generated composed term, which is the same function.
  Nothing was rewritten by the idealization, so there is nothing to preserve.
-/
import proofs.«139015_j46703474376723_1_alg».proof.Defs
import proofs.«139015_j46703474376723_1_alg».proof.Proof.Gen.Kernel
import proofs.«139015_j46703474376723_1_alg».proof.Proof.Gen.Kernel.Frame
import proofs.«139015_j46703474376723_1_alg».proof.Proof.Gen.KernelIdeal
import proofs.«139015_j46703474376723_1_alg».proof.Proof.Gen.KernelIdeal.Frame
import proofs.«139015_j46703474376723_1_alg».proof.Proof.Gen.ReferenceIdeal
import proofs.«139015_j46703474376723_1_alg».proof.Proof.Gen.ReferenceIdeal.Run
import proofs.«139015_j46703474376723_1_alg».proof.Proof.Gen.Pre_finite_inputs
import proofs.«139015_j46703474376723_1_alg».proof.Proof.KernelValue
import proofs.«139015_j46703474376723_1_alg».proof.Proof.RefTerm
import Idealize.ShloMosaic.Adequacy
import Idealize.ShloMosaic.Init

noncomputable section

namespace Cert.Proof

open Idealize.ShloMosaic Idealize.ShloMosaic.TcCoe Idealize.SL.Sem

/-- Both programs state the same dimension numbers and shape facts for the 64-wide average … -/
theorem recs64_eq : Cert.ReferenceIdeal.HostSide.recs64 = Cert.KernelIdeal.HostSide.recs64 := rfl
/-- … and for the 128-wide one. -/
theorem recs128_eq : Cert.ReferenceIdeal.HostSide.recs128 = Cert.KernelIdeal.HostSide.recs128 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the two-round function of those arguments
    in their result arrays. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.HostSide.result_eq, a0, a1, a2, a3, a4, a5, a6, a7, recs64_eq, recs128_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
